-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S256x256 : Shape := ⟨2, ![256, 256]⟩
abbrev S64x8192 : Shape := ⟨2, ![64, 8192]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S64x8192 : S_.BroadcastsInDim S64x8192 (![] : Fin 0 → Fin S64x8192.rank)
  reducesTo_S64x8192_S_d0_1 : S64x8192.ReducesTo [0, 1] S_

variable [Facts]

def fn_part1 {F : FTy → Type} [FloatOps F] (main_arg2 : IVec S64x8192 32) (main_arg3 : IVec S64x8192 32) (main_v13 : IVec S_ 1) (main_v15 : IVec S64x8192 1) (main_c_5 : IVec S_ 1) : IVec S_ 1 :=
  let main_v16 : IVec S_ 1 := (fun x v => Host.reduce IntOp.andi x v reducesTo_S64x8192_S_d0_1 h_S_) main_v15 main_c_5
  let main_v17 : IVec S_ 1 := andi main_v13 main_v16
  let main_c_6 : IVec S_ 32 := constantI S_ 32 256#32
  let main_v18 : IVec S64x8192 32 := broadcastInDim S64x8192 ![] bcast_S_S64x8192 main_c_6
  let main_v19 : IVec S64x8192 1 := cmpi .slt main_arg2 main_v18
  let main_c_7 : IVec S_ 1 := constantI S_ 1 1#1
  let main_v20 : IVec S_ 1 := (fun x v => Host.reduce IntOp.andi x v reducesTo_S64x8192_S_d0_1 h_S_) main_v19 main_c_7
  let main_v21 : IVec S_ 1 := andi main_v17 main_v20
  let main_c_8 : IVec S_ 32 := constantI S_ 32 0#32
  let main_v22 : IVec S64x8192 32 := broadcastInDim S64x8192 ![] bcast_S_S64x8192 main_c_8
  let main_v23 : IVec S64x8192 1 := cmpi .sge main_arg3 main_v22
  let main_c_9 : IVec S_ 1 := constantI S_ 1 1#1
  let main_v24 : IVec S_ 1 := (fun x v => Host.reduce IntOp.andi x v reducesTo_S64x8192_S_d0_1 h_S_) main_v23 main_c_9
  let main_v25 : IVec S_ 1 := andi main_v21 main_v24
  let main_c_10 : IVec S_ 32 := constantI S_ 32 256#32
  let main_v26 : IVec S64x8192 32 := broadcastInDim S64x8192 ![] bcast_S_S64x8192 main_c_10
  let main_v27 : IVec S64x8192 1 := cmpi .slt main_arg3 main_v26
  let main_c_11 : IVec S_ 1 := constantI S_ 1 1#1
  let main_v28 : IVec S_ 1 := (fun x v => Host.reduce IntOp.andi x v reducesTo_S64x8192_S_d0_1 h_S_) main_v27 main_c_11
  let main_v29 : IVec S_ 1 := andi main_v25 main_v28
  main_v29

def fn {F : FTy → Type} [FloatOps F] (main_arg0 : FVec F S64x256x256 .f32) (main_arg1 : FVec F S256x256 .f32) (main_arg2 : IVec S64x8192 32) (main_arg3 : IVec S64x8192 32) (main_arg4 : FVec F S64x8192 .f32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S64x8192 .f32 := Host.absf main_arg4
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  let main_c_4 : IVec S_ 32 := constantI S_ 32 0#32
  let main_v14 : IVec S64x8192 32 := broadcastInDim S64x8192 ![] bcast_S_S64x8192 main_c_4
  let main_v15 : IVec S64x8192 1 := cmpi .sge main_arg2 main_v14
  let main_c_5 : IVec S_ 1 := constantI S_ 1 1#1
  fn_part1 (F := F) main_arg2 main_arg3 main_v13 main_v15 main_c_5
-- ==== Kernel.lean ====
abbrev S64x256x256 : Shape := ⟨3, ![64, 256, 256]⟩
abbrev S256x256 : Shape := ⟨2, ![256, 256]⟩
abbrev S64x8192 : Shape := ⟨2, ![64, 8192]⟩
abbrev S64x1x8192 : Shape := ⟨3, ![64, 1, 8192]⟩
abbrev S64x1x1 : Shape := ⟨3, ![64, 1, 1]⟩
abbrev S1x256x256 : Shape := ⟨3, ![1, 256, 256]⟩
abbrev S1x1x8192 : Shape := ⟨3, ![1, 1, 8192]⟩
abbrev S1x1x1 : Shape := ⟨3, ![1, 1, 1]⟩
abbrev S1x8192 : Shape := ⟨2, ![1, 8192]⟩
abbrev S256x8192 : Shape := ⟨2, ![256, 8192]⟩
abbrev S256 : Shape := ⟨1, ![256]⟩
abbrev S256x1 : Shape := ⟨2, ![256, 1]⟩
abbrev S1 : Shape := ⟨1, ![1]⟩
abbrev S1x1 : Shape := ⟨2, ![1, 1]⟩
abbrev S64 : Shape := ⟨1, ![64]⟩
abbrev S_ : Shape := ⟨0, ![]⟩

abbrev nBuf : Space → Nat
  | .hbm => 22
  | .vmem => 11
  | .smem => 0
  | _ => 0

abbrev bufTy : (tb : Table) → Fin (tcTables nBuf tb) → BufTy
  | .hbm, ⟨0, _⟩ => ⟨S64x256x256, .f32⟩
  | .hbm, ⟨1, _⟩ => ⟨S256x256, .f32⟩
  | .hbm, ⟨2, _⟩ => ⟨S64x8192, .i32⟩
  | .hbm, ⟨3, _⟩ => ⟨S64x8192, .i32⟩
  | .hbm, ⟨4, _⟩ => ⟨S64x8192, .f32⟩
  | .hbm, ⟨5, _⟩ => ⟨S64x256x256, .bf16⟩
  | .hbm, ⟨6, _⟩ => ⟨S256x256, .bf16⟩
  | .hbm, ⟨7, _⟩ => ⟨S64x1x8192, .i32⟩
  | .hbm, ⟨8, _⟩ => ⟨S64x1x8192, .i32⟩
  | .hbm, ⟨9, _⟩ => ⟨S64x1x8192, .f32⟩
  | .hbm, ⟨10, _⟩ => ⟨S64x1x1, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x256x256, .bf16⟩
  | .local _ .vmem, ⟨1, _⟩ => ⟨S1x256x256, .bf16⟩
  | .local _ .vmem, ⟨2, _⟩ => ⟨S256x256, .bf16⟩
  | .local _ .vmem, ⟨3, _⟩ => ⟨S1x1x8192, .i32⟩
  | .local _ .vmem, ⟨4, _⟩ => ⟨S1x1x8192, .i32⟩
  | .local _ .vmem, ⟨5, _⟩ => ⟨S1x1x8192, .i32⟩
  | .local _ .vmem, ⟨6, _⟩ => ⟨S1x1x8192, .i32⟩
  | .local _ .vmem, ⟨7, _⟩ => ⟨S1x1x8192, .f32⟩
  | .local _ .vmem, ⟨8, _⟩ => ⟨S1x1x8192, .f32⟩
  | .local _ .vmem, ⟨9, _⟩ => ⟨S1x1x1, .f32⟩
  | .local _ .vmem, ⟨10, _⟩ => ⟨S1x1x1, .f32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S64x8192_S64x1x8192 : S64x8192.ShapeCasts S64x1x8192
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  iota_S256x8192_d0_w32 : S256x8192.Iotas .tc 32 [0]
  broadcasts_S1x8192_S256x8192 : S1x8192.Broadcasts S256x8192
  shapeCasts_S1x8192_S1x8192 : S1x8192.ShapeCasts S1x8192
  reduces_S256x256_S256 : S256x256.Reduces [1] S256
  shapeCasts_S256_S256x1 : S256.ShapeCasts S256x1
  reduces_S256x1_S1 : S256x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S64x1x1_S64 : S64x1x1.ShapeCasts S64
  reducesTo_S64x8192_S64_d1 : S64x8192.ReducesTo [1] S64
  h_S_ : 0 < S_.numel
  bcast_S_S64 : S_.BroadcastsInDim S64 (![] : Fin 0 → Fin S64.rank)
  reducesTo_S64_S_d0 : S64.ReducesTo [0] S_
  dot_S256x256_S256x256_S256x256_1_0_0_1_n_n_wf : DotDims.WF S256x256 S256x256 S256x256 [1] [0] [0] [1] [] []
  dot_S256x8192_S256x8192_S256x256_1_1_0_0_n_n_wf : DotDims.WF S256x8192 S256x8192 S256x256 [1] [1] [0] [0] [] []
  dot_S256x256_S256x256_S256x256_1_1_0_0_n_n_wf : DotDims.WF S256x256 S256x256 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S64x256x256.size a
  hwx0_0 : ∀ i : grid0.Coords, EltTy.bits .bf16 = 32 ∨ (Rect.block (s := S64x256x256) S1x256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S64x1x8192.size a
  hwx0_2 : ∀ i : grid0.Coords, EltTy.bits .i32 = 32 ∨ (Rect.block (s := S64x1x8192) S1x1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S64x1x8192.size a
  hwx0_3 : ∀ i : grid0.Coords, EltTy.bits .i32 = 32 ∨ (Rect.block (s := S64x1x8192) S1x1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8192.size a ≤ S64x1x8192.size a
  hwx0_4 : ∀ i : grid0.Coords, EltTy.bits .f32 = 32 ∨ (Rect.block (s := S64x1x8192) S1x1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S64x1x1.size a
  hwx0_5 : ∀ i : grid0.Coords, EltTy.bits .f32 = 32 ∨ (Rect.block (s := S64x1x1) S1x1x1.size (cc0_transform_5 i) (hinb0_5 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x8192_S256x8192_S256x256_1_1_0_0_n_n : DotDims S256x8192 S256x8192 S256x256 where
  lhsContracting := [1]
  rhsContracting := [1]
  lhsNonContracting := [0]
  rhsNonContracting := [0]
  lhsBatch := []
  rhsBatch := []
  wf := dot_S256x8192_S256x8192_S256x256_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf

abbrev win0_0 : Pipeline.Window sig grid0 :=
  Pipeline.Window.ofSpec (Memref.whole main_v0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x256 : Shape := ⟨3, ![64, 256, 256]⟩
abbrev S256x256 : Shape := ⟨2, ![256, 256]⟩
abbrev S64x8192 : Shape := ⟨2, ![64, 8192]⟩
abbrev S64x8192x1 : Shape := ⟨3, ![64, 8192, 1]⟩
abbrev S_ : Shape := ⟨0, ![]⟩
abbrev S1 : Shape := ⟨1, ![1]⟩
abbrev S1x1x1 : Shape := ⟨3, ![1, 1, 1]⟩
abbrev S64x8192x256 : Shape := ⟨3, ![64, 8192, 256]⟩
abbrev S64 : Shape := ⟨1, ![64]⟩

abbrev nBuf : Space → Nat
  | .hbm => 68
  | .vmem => 0
  | .smem => 0
  | _ => 0

abbrev bufTy : (tb : Table) → Fin (tcTables nBuf tb) → BufTy
  | .hbm, ⟨0, _⟩ => ⟨S64x256x256, .f32⟩
  | .hbm, ⟨1, _⟩ => ⟨S256x256, .f32⟩
  | .hbm, ⟨2, _⟩ => ⟨S64x8192, .i32⟩
  | .hbm, ⟨3, _⟩ => ⟨S64x8192, .i32⟩
  | .hbm, ⟨4, _⟩ => ⟨S64x8192, .f32⟩
  | .hbm, ⟨5, _⟩ => ⟨S64x256x256, .f32⟩
  | .hbm, ⟨6, _⟩ => ⟨S64x8192x1, .i32⟩
  | .hbm, ⟨7, _⟩ => ⟨S_, .i32⟩
  | .hbm, ⟨8, _⟩ => ⟨S64x8192x1, .i32⟩
  | .hbm, ⟨9, _⟩ => ⟨S64x8192x1, .i1⟩
  | .hbm, ⟨10, _⟩ => ⟨S_, .i32⟩
  | .hbm, ⟨11, _⟩ => ⟨S64x8192x1, .i32⟩
  | .hbm, ⟨12, _⟩ => ⟨S64x8192x1, .i32⟩
  | .hbm, ⟨13, _⟩ => ⟨S64x8192x1, .i32⟩
  | .hbm, ⟨14, _⟩ => ⟨S1, .i32⟩
  | .hbm, ⟨15, _⟩ => ⟨S_, .i32⟩
  | .hbm, ⟨16, _⟩ => ⟨S64x8192x1, .i32⟩
  | .hbm, ⟨17, _⟩ => ⟨S64x8192x1, .i1⟩
  | .hbm, ⟨18, _⟩ => ⟨S1x1x1, .i32⟩
  | .hbm, ⟨19, _⟩ => ⟨S64x8192x1, .i32⟩
  | .hbm, ⟨20, _⟩ => ⟨S64x8192x1, .i1⟩
  | .hbm, ⟨21, _⟩ => ⟨S64x8192x1, .i1⟩
  | .hbm, ⟨22, _⟩ => ⟨S_, .i1⟩
  | .hbm, ⟨23, _⟩ => ⟨S64x8192, .i1⟩
  | .hbm, ⟨24, _⟩ => ⟨S64x8192x256, .f32⟩
  | .hbm, ⟨25, _⟩ => ⟨S64x8192x256, .i1⟩
  | .hbm, ⟨26, _⟩ => ⟨S_, .f32⟩
  | .hbm, ⟨27, _⟩ => ⟨S64x8192x256, .f32⟩
  | .hbm, ⟨28, _⟩ => ⟨S64x8192x256, .f32⟩
  | .hbm, ⟨29, _⟩ => ⟨S64x8192x1, .i32⟩
  | .hbm, ⟨30, _⟩ => ⟨S_, .i32⟩
  | .hbm, ⟨31, _⟩ => ⟨S64x8192x1, .i32⟩
  | .hbm, ⟨32, _⟩ => ⟨S64x8192x1, .i1⟩
  | .hbm, ⟨33, _⟩ => ⟨S_, .i32⟩
  | .hbm, ⟨34, _⟩ => ⟨S64x8192x1, .i32⟩
  | .hbm, ⟨35, _⟩ => ⟨S64x8192x1, .i32⟩
  | .hbm, ⟨36, _⟩ => ⟨S64x8192x1, .i32⟩
  | .hbm, ⟨37, _⟩ => ⟨S1, .i32⟩
  | .hbm, ⟨38, _⟩ => ⟨S_, .i32⟩
  | .hbm, ⟨39, _⟩ => ⟨S64x8192x1, .i32⟩
  | .hbm, ⟨40, _⟩ => ⟨S64x8192x1, .i1⟩
  | .hbm, ⟨41, _⟩ => ⟨S1x1x1, .i32⟩
  | .hbm, ⟨42, _⟩ => ⟨S64x8192x1, .i32⟩
  | .hbm, ⟨43, _⟩ => ⟨S64x8192x1, .i1⟩
  | .hbm, ⟨44, _⟩ => ⟨S64x8192x1, .i1⟩
  | .hbm, ⟨45, _⟩ => ⟨S_, .i1⟩
  | .hbm, ⟨46, _⟩ => ⟨S64x8192, .i1⟩
  | .hbm, ⟨47, _⟩ => ⟨S64x8192x256, .f32⟩
  | .hbm, ⟨48, _⟩ => ⟨S64x8192x256, .i1⟩
  | .hbm, ⟨49, _⟩ => ⟨S_, .f32⟩
  | .hbm, ⟨50, _⟩ => ⟨S64x8192x256, .f32⟩
  | .hbm, ⟨51, _⟩ => ⟨S64x8192x256, .f32⟩
  | .hbm, ⟨52, _⟩ => ⟨S64x8192x256, .f32⟩
  | .hbm, ⟨53, _⟩ => ⟨S_, .f32⟩
  | .hbm, ⟨54, _⟩ => ⟨S64x8192, .f32⟩
  | .hbm, ⟨55, _⟩ => ⟨S64x8192, .f32⟩
  | .hbm, ⟨56, _⟩ => ⟨S_, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_c_2 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v4 : Ref sig .tc := ⟨.hbm, 51, rfl⟩
abbrev main_v5 : Ref sig .tc := ⟨.hbm, 52, rfl⟩
abbrev main_cst : Ref sig .tc := ⟨.hbm, 53, rfl⟩
abbrev main_v6 : Ref sig .tc := ⟨.hbm, 54, rfl⟩
abbrev main_v7 : Ref sig .tc := ⟨.hbm, 55, rfl⟩
abbrev main_cst_0 : Ref sig .tc := ⟨.hbm, 56, rfl⟩
abbrev main_v8 : Ref sig .tc := ⟨.hbm, 57, rfl⟩
abbrev main_cst_1 : Ref sig .tc := ⟨.hbm, 58, rfl⟩
abbrev main_v9 : Ref sig .tc := ⟨.hbm, 59, rfl⟩
abbrev main_cst_2 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_cst_3 : Ref sig .tc := ⟨.hbm, 64, rfl⟩
abbrev main_v13 : Ref sig .tc := ⟨.hbm, 65, rfl⟩
abbrev main_cst_4 : Ref sig .tc := ⟨.hbm, 66, rfl⟩
abbrev main_v14 : Ref sig .tc := ⟨.hbm, 67, rfl⟩

abbrev nD : Nat := 1
abbrev τ : Topo := Topo.v7x

variable {F : FTy → Type} [FloatOps F]

class Facts₀ : Prop where
  bcast_S64x8192_S64x8192x1_0_1 : S64x8192.BroadcastsInDim S64x8192x1 (![0, 1] : Fin 2 → Fin S64x8192x1.rank)
  bcast_S_S64x8192x1 : S_.BroadcastsInDim S64x8192x1 (![] : Fin 0 → Fin S64x8192x1.rank)
  bcast_S1_S1x1x1_2 : S1.BroadcastsInDim S1x1x1 (![2] : Fin 1 → Fin S1x1x1.rank)
  bcast_S1x1x1_S64x8192x1_0_1_2 : S1x1x1.BroadcastsInDim S64x8192x1 (![0, 1, 2] : Fin 3 → Fin S64x8192x1.rank)
  reducesTo_S64x8192x1_S64x8192_d2 : S64x8192x1.ReducesTo [2] S64x8192
  h_S_ : 0 < S_.numel
  bcast_S64x8192_S64x8192x256_0_1 : S64x8192.BroadcastsInDim S64x8192x256 (![0, 1] : Fin 2 → Fin S64x8192x256.rank)
  bcast_S_S64x8192x256 : S_.BroadcastsInDim S64x8192x256 (![] : Fin 0 → Fin S64x8192x256.rank)
  reducesTo_S64x8192x256_S64x8192_d2 : S64x8192x256.ReducesTo [2] S64x8192
  reducesTo_S64x8192_S64_d1 : S64x8192.ReducesTo [1] S64
  bcast_S_S64 : S_.BroadcastsInDim S64 (![] : Fin 0 → Fin S64.rank)
  reducesTo_S64_S_d0 : S64.ReducesTo [0] S_
  dot_S64x256x256_S256x256_S64x256x256_2_0_01_1_n_n_wf : DotDims.WF S64x256x256 S256x256 S64x256x256 [2] [0] [0, 1] [1] [] []
  gather_S64x256x256_S64x8192x1_S64x8192x256_2_1_0_0_1_2_11256_wf : GatherDims.WF S64x256x256 S64x8192x1 S64x8192x256 [2] [1] [0] [1] [0] 2 ![1, 1, 256]

variable [Facts₀]

def dot_S64x256x256_S256x256_S64x256x256_2_0_01_1_n_n : DotDims S64x256x256 S256x256 S64x256x256 where
  lhsContracting := [2]
  rhsContracting := [0]
  lhsNonContracting := [0, 1]
  rhsNonContracting := [1]
  lhsBatch := []
  rhsBatch := []
  wf := dot_S64x256x256_S256x256_S64x256x256_2_0_01_1_n_n_wf
def gather_S64x256x256_S64x8192x1_S64x8192x256_2_1_0_0_1_2_11256 : GatherDims S64x256x256 S64x8192x1 S64x8192x256 where
  offsetDims := [2]
  collapsedSliceDims := [1]
  operandBatchingDims := [0]
  startIndicesBatchingDims := [0]
  startIndexMap := [1]
  indexVectorDim := 2
  sliceSizes := ![1, 1, 256]
  wf := gather_S64x256x256_S64x8192x1_S64x8192x256_2_1_0_0_1_2_11256_wf

class Facts : Prop extends Facts₀ where

variable [Facts]
-- ==== Proof.EdgeSum.lean ====
/-
  The mathematics of one sample, with no program in sight.

  A sample has a 256 × 256 matrix `P`, the shared 256 × 256 matrix `d`, and 8192 weighted edges `(i_e, j_e, w_e)`.
  With `Q = P · d`, the cost of an edge is the quadratic form `c(i_e, j_e)`, where `c(i, j) = Σ_n Q[i, n] · P[j, n]`, and the
  sample's loss is `Σ_e w_e · c(i_e, j_e)`.

  One program gathers the two rows of each edge and sums over the edges (`refLoss`). The other never gathers: it builds
  `A[i, j] = Σ_e w_e · [i = i_e] · [j = j_e]` from two one-hot matrices and takes `Σ_i Σ_j A[i, j] · c(i, j)` (`kerLoss`, whose
  one-hot tests compare a row number, written as a 32-bit word, with the edge's index word).

  The two agree when every index word is a row number below 256 (each one-hot column then has exactly one set entry, at that row) and
  when every entry of `P`, `d` and `w` is a real number: the step that moves `c(i, j)` inside the sum over the edges
  is distributivity, which the extended reals have only away from the infinities. The law is proved over the reals, and carried
  to the extended reals by the coercion, which commutes with finite sums and products of real numbers.
-/
import Idealize.ShloMosaic.PureOps.Ideal.Laws

noncomputable section

open scoped BigOperators

namespace Cert.EdgeSum

/-! ## Extended reals that are real numbers -/

/-- An extended real that is a real number (neither infinity). -/
def IsReal (x : EReal) : Prop := ∃ r : ℝ, x = (r : EReal)

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The one-hot contraction is the sum over the edges -/

section Contraction

variable {N E : Type} [Fintype N] [Fintype E] [DecidableEq N]

/-- Over the reals: contracting the weighted one-hot matrix of the edges' first indices with the one-hot matrix of their
    second indices, and pairing the result with any matrix `c`, picks out `c` at each edge's two indices. -/
theorem onehot_contract_real (a b : E → N) (w : E → ℝ) (c : N → N → ℝ) :
    ∑ i, ∑ j, (∑ e, (if i = a e then w e else 0) * (if j = b e then 1 else 0)) * c i j = ∑ e, w e * c (a e) (b e) := by
  have step : ∀ e, ∑ i, ∑ j, (if i = a e then w e else 0) * (if j = b e then 1 else 0) * c i j = w e * c (a e) (b e) := by
    intro e
    have inner : ∀ i, ∑ j, (if i = a e then w e else 0) * (if j = b e then 1 else 0) * c i j
        = (if i = a e then w e else 0) * c i (b e) := by
      intro i
      simp only [mul_ite, mul_one, mul_zero, ite_mul, zero_mul, Finset.sum_ite_eq', Finset.mem_univ, if_true]
    simp only [inner]
    simp only [ite_mul, zero_mul, Finset.sum_ite_eq', Finset.mem_univ, if_true]
  calc ∑ i, ∑ j, (∑ e, (if i = a e then w e else 0) * (if j = b e then 1 else 0)) * c i j
      = ∑ i, ∑ j, ∑ e, (if i = a e then w e else 0) * (if j = b e then 1 else 0) * c i j := by
        simp only [Finset.sum_mul]
    _ = ∑ i, ∑ e, ∑ j, (if i = a e then w e else 0) * (if j = b e then 1 else 0) * c i j :=
        Finset.sum_congr rfl fun i _ => Finset.sum_comm
    _ = ∑ e, ∑ i, ∑ j, (if i = a e then w e else 0) * (if j = b e then 1 else 0) * c i j := Finset.sum_comm
    _ = ∑ e, w e * c (a e) (b e) := Finset.sum_congr rfl fun e _ => step e

/-- The same over the extended reals, for real weights and a real matrix `c`. -/
theorem onehot_contract (a b : E → N) (w : E → EReal) (c : N → N → EReal)
    (hw : ∀ e, IsReal (w e)) (hc : ∀ i j, IsReal (c i j)) :
    ∑ i, ∑ j, (∑ e, (if i = a e then w e else 0) * (if j = b e then 1 else 0)) * c i j = ∑ e, w e * c (a e) (b e) := by
  choose w' hw' using hw
  choose c' hc' using hc
  have hL : ∑ i, ∑ j, (∑ e, (if i = a e then w e else 0) * (if j = b e then 1 else 0)) * c i j
      = ((∑ i, ∑ j, (∑ e, (if i = a e then w' e else 0) * (if j = b e then 1 else 0)) * c' i j : ℝ) : EReal) := by
    simp only [coe_sum, EReal.coe_mul, apply_ite ((↑) : ℝ → EReal), EReal.coe_zero, EReal.coe_one, ← hw', ← hc']
  have hR : ∑ e, w e * c (a e) (b e) = ((∑ e, w' e * c' (a e) (b e) : ℝ) : EReal) := by
    simp only [coe_sum, EReal.coe_mul, ← hw', ← hc']
  rw [hL, hR, onehot_contract_real]

end Contraction

/-! ## One sample's loss, both ways -/

/-- The quadratic form `c(i, j) = Σ_n (Σ_k P[i, k] · d[k, n]) · P[j, n]`. -/
def pairCost (P d : Fin 256 → Fin 256 → EReal) (i j : Fin 256) : EReal :=
  ∑ n : Fin 256, (∑ k : Fin 256, P i k * d k n) * P j n

theorem isReal_pairCost (P d : Fin 256 → Fin 256 → EReal) (hP : ∀ i k, IsReal (P i k)) (hd : ∀ k n, IsReal (d k n))
    (i j : Fin 256) : IsReal (pairCost P d i j) :=
  isReal_sum _ _ fun n _ => (isReal_sum _ _ fun k _ => (hP i k).mul (hd k n)).mul (hP j n)

/-- The loss as the sum over the edges of the weighted cost at the edge's two rows. -/
def refLoss (P d : Fin 256 → Fin 256 → EReal) (ri rj : Fin 8192 → Fin 256) (w : Fin 8192 → EReal) : EReal :=
  ∑ e : Fin 8192, w e * pairCost P d (ri e) (rj e)

/-- The loss as the pairing of the cost matrix with the contraction of two one-hot matrices, whose tests compare the row
    number, as a 32-bit word, with the edge's index word. -/
def kerLoss (P d : Fin 256 → Fin 256 → EReal) (ei ej : Fin 8192 → BitVec 32) (w : Fin 8192 → EReal) : EReal :=
  ∑ i : Fin 256, ∑ j : Fin 256,
    (∑ e : Fin 8192, (if BitVec.ofNat 32 i.val = ei e then w e else 0) * (if BitVec.ofNat 32 j.val = ej e then 1 else 0))
      * pairCost P d i j

/-- A row number below 256, written as a word, is the index word exactly when it is the word's value. -/
theorem ofNat_eq_iff (i : Fin 256) (x : BitVec 32) (hx : x.toNat < 256) :
    BitVec.ofNat 32 i.val = x ↔ i = ⟨x.toNat, hx⟩ := by
  constructor
  · intro h
    apply Fin.ext
    have := congrArg BitVec.toNat h
    rw [BitVec.toNat_ofNat] at this
    have hi := i.isLt
    show i.val = x.toNat
    omega
  · intro h
    subst h
    show BitVec.ofNat 32 x.toNat = x
    apply BitVec.eq_of_toNat_eq
    rw [BitVec.toNat_ofNat]
    exact Nat.mod_eq_of_lt (by omega)

/-- THE LAW: with every index word a row number below 256 and every entry real, the two losses are equal. -/
theorem kerLoss_eq_refLoss (P d : Fin 256 → Fin 256 → EReal) (ei ej : Fin 8192 → BitVec 32) (w : Fin 8192 → EReal)
    (hP : ∀ i k, IsReal (P i k)) (hd : ∀ k n, IsReal (d k n)) (hw : ∀ e, IsReal (w e))
    (hi : ∀ e, (ei e).toNat < 256) (hj : ∀ e, (ej e).toNat < 256) :
    kerLoss P d ei ej w = refLoss P d (fun e => ⟨(ei e).toNat, hi e⟩) (fun e => ⟨(ej e).toNat, hj e⟩) w := by
  unfold kerLoss refLoss
  rw [← onehot_contract (fun e => (⟨(ei e).toNat, hi e⟩ : Fin 256)) (fun e => (⟨(ej e).toNat, hj e⟩ : Fin 256)) w
    (pairCost P d) hw (isReal_pairCost P d hP hd)]
  refine Finset.sum_congr rfl fun i _ => Finset.sum_congr rfl fun j _ => ?_
  congr 1
  refine Finset.sum_congr rfl fun e _ => ?_
  congr 1
  · exact if_congr (ofNat_eq_iff i (ei e) (hi e)) rfl rfl
  · exact if_congr (ofNat_eq_iff j (ej e) (hj e)) rfl rfl

end Cert.EdgeSum

end
-- ==== Proof.PreRead.lean ====
/-
  What the precondition says, entry by entry: every entry of the three float inputs is a real number, and every word of the two
  index inputs, read unsigned, is below 256.

  The precondition is a conjunction of seven "for all entries" tests, each an and-reduction of an array of one-bit answers down to
  a single bit. The conjunction is one exactly when each of the seven bits is one, and an and-reduction is one only when every
  answer it folded is one. So the proof comes down to two facts about a single entry:
    • for an extended real x, |x| = max x (-x) < +∞ forces x to be a real number (both infinities have |x| = +∞);
    • for a 32-bit word x, 0 ≤ x and x < 256 read SIGNED force the top bit clear, so the signed and the unsigned readings agree
      and the unsigned reading is below 256.
-/
import proofs.«401316_j816043786441_3_alg».proof.Pre_finite_inputs
import proofs.«401316_j816043786441_3_alg».proof.Proof.Gen.Pre_finite_inputs
import proofs.«401316_j816043786441_3_alg».proof.Proof.EdgeSum
import Idealize.ShloMosaic.Lib.ReduceAll
import Idealize.ShloMosaic.Lib.Affine
import Idealize.ShloMosaic.Lib.ValueIdx
import Idealize.ShloMosaic.Lib.StableHlo.Predicate
import Idealize.ShloMosaic.PureOps.Ideal.Laws

noncomputable section

namespace Cert.PreRead

open Cert.Pre_finite_inputs Cert.Pre_finite_inputs.Gen Cert.EdgeSum
open Idealize.ShloMosaic Idealize.ShloMosaic.ValueIdx

/-- The scalar shape has exactly one index. -/
instance : Subsingleton S_.Idx := ⟨fun a b => funext fun d => d.elim0⟩

/-! ## One float entry -/

/-- The 32-bit pattern with all exponent bits set, sign and fraction clear, is +∞. -/
theorem inf_word : Ideal.ofBits .f32 0x7F800000#32 = (⊤ : EReal) := by simp [Ideal.ofBits, Ideal.ieee]

/-- An extended real whose absolute value max x (-x) is below +∞ is a real number: at either infinity the
    absolute value is +∞ itself. -/
theorem isReal_of_abs_lt_top (x : EReal) (h : max x (-x) < ⊤) : IsReal x := by
  induction x using EReal.rec with
  | bot => simp at h
  | coe r => exact ⟨r, rfl⟩
  | top => simp at h

/-- The test "|x| < +∞" answering one says that x is a real number. -/
theorem isReal_of_bit (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [inf_word] at h'
  simp only [Ideal.cmp, StableHlo.Predicate.ofBool_eq_one_iff, decide_eq_true_eq] at h'
  exact isReal_of_abs_lt_top x h'

/-! ## One index word -/

/-- A 32-bit word that tests 0 ≤ x and x < 256 as a SIGNED number is below 256 as an unsigned one: a nonnegative
    signed reading means the top bit is clear, and then the two readings are the same number. -/
theorem toNat_lt_of_bits (x : BitVec 32) (h0 : IntOp.cmpi .sge x 0#32 = 1#1) (h1 : IntOp.cmpi .slt x 256#32 = 1#1) :
    x.toNat < 256 := by
  rw [IntOp.cmpi_sge] at h0
  rw [IntOp.cmpi_slt] at h1
  have e0 : (0#32 : BitVec 32).toInt = 0 := by decide
  have e1 : (256#32 : BitVec 32).toInt = 256 := by decide
  rw [e0] at h0; rw [e1] at h1
  have hc := BitVec.toInt_eq_toNat_cond x
  have hl := x.isLt
  split_ifs at hc <;> omega

/-! ## One array -/

/-- All-of over a float array: if the and-reduction of the entrywise test "|x| is below +∞" comes out one, every entry
    is a real number. (The +∞ the entries are compared with is one scalar, broadcast: it reads the same at every index.) -/
theorem real_of_all {t : Shape} {axes : List (Fin t.rank)} (a : FVec Ideal t .f32) (hb : S_.BroadcastsInDim t ![])
    (hr : t.ReducesTo axes S_) (hS : 0 < S_.numel)
    (e : Host.reduce IntOp.andi
          (cmpf .olt (Host.absf a) (broadcastInDim t ![] hb (constant (F := Ideal) S_ .f32 0x7F800000#32)))
          (constantI S_ 1 1#1) hr hS ix0 = 1#1) (i : t.Idx) : IsReal (a i) := by
  have hi := Host.reduce_andi_all _ _ hr hS ix0 e i
  have hb' : broadcastInDim t ![] hb (constant (F := Ideal) S_ .f32 0x7F800000#32) i
      = FloatOps.ofBits (F := Ideal) .f32 0x7F800000#32 := StableHlo.Predicate.bcast_scalar hb hS _ i
  apply isReal_of_bit
  rw [← hb']
  exact hi

/-- All-of over a word array, for one comparison against a broadcast literal c: if the and-reduction comes out one,
    every entry's comparison with c answers one. -/
theorem cmp_of_all {t : Shape} {axes : List (Fin t.rank)} (p : CmpIPredicate) (c : BitVec 32) (a : IVec t 32)
    (hb : S_.BroadcastsInDim t ![]) (hr : t.ReducesTo axes S_) (hS : 0 < S_.numel)
    (e : Host.reduce IntOp.andi (cmpi p a (broadcastInDim t ![] hb (constantI S_ 32 c))) (constantI S_ 1 1#1) hr hS ix0 = 1#1)
    (i : t.Idx) : IntOp.cmpi p (a i) c = 1#1 := by
  have hi := Host.reduce_andi_all _ _ hr hS ix0 e i
  have hb' : broadcastInDim t ![] hb (constantI S_ 32 c) i = c := StableHlo.Predicate.bcast_scalar hb hS _ i
  rw [← hb']
  exact hi

/-! ## The precondition -/

/-- The precondition, all ones, read entry by entry. -/
theorem of_pre (a0 : FVec Ideal S64x256x256 .f32) (a1 : FVec Ideal S256x256 .f32) (a2 a3 : IVec S64x8192 32)
    (a4 : FVec Ideal S64x8192 .f32)
    (h : Cert.Pre_finite_inputs.fn (F := Ideal) a0 a1 a2 a3 a4 = fun _ => 1#1) :
    (∀ i, IsReal (a0 i)) ∧ (∀ i, IsReal (a1 i)) ∧ (∀ i, IsReal (a4 i))
      ∧ (∀ i, (a2 i).toNat < 256) ∧ (∀ i, (a3 i).toNat < 256) := by
  -- the one bit of the result, then the left-nested conjunction split into its seven all-of tests
  have h0 := congrFun h ix0
  dsimp only [Cert.Pre_finite_inputs.fn, Cert.Pre_finite_inputs.fn_part1] at h0
  obtain ⟨h6, r7⟩ := IntOp.andi_eq_one.1 h0
  obtain ⟨h5, r6⟩ := IntOp.andi_eq_one.1 h6
  obtain ⟨h4, r5⟩ := IntOp.andi_eq_one.1 h5
  obtain ⟨h3, r4⟩ := IntOp.andi_eq_one.1 h4
  obtain ⟨h2, r3⟩ := IntOp.andi_eq_one.1 h3
  obtain ⟨r1, r2⟩ := IntOp.andi_eq_one.1 h2
  -- each test read back at an arbitrary entry
  refine ⟨fun i => real_of_all a0 _ _ _ r1 i, fun i => real_of_all a1 _ _ _ r2 i, fun i => real_of_all a4 _ _ _ r3 i,
    fun i => toNat_lt_of_bits _ (cmp_of_all .sge 0#32 a2 _ _ _ r4 i) (cmp_of_all .slt 256#32 a2 _ _ _ r5 i),
    fun i => toNat_lt_of_bits _ (cmp_of_all .sge 0#32 a3 _ _ _ r6 i) (cmp_of_all .slt 256#32 a3 _ _ _ r7 i)⟩

end Cert.PreRead

end
-- ==== Proof.RefValue.lean ====
/-
  The reference's loss of one sample, read at that sample: the sum over the sample's edges of the edge weight times the
  quadratic form at the edge's two rows.
-/
import proofs.«401316_j816043786441_3_alg».proof.Proof.RefRead
import proofs.«401316_j816043786441_3_alg».proof.Proof.EdgeSum
import Idealize.ShloMosaic.Lib.ValueIdx
import Idealize.ShloMosaic.Lib.Pipeline.Value
import Idealize.ShloMosaic.Lib.StableHlo.Predicate
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.ReadP Cert.EdgeSum
open Idealize.ShloMosaic Idealize.ShloMosaic.ValueIdx

/-! ## Words below 256 -/

/-- A word below 256, read signed, is not below zero … -/
theorem slt_zero_of_lt {a : BitVec 32} (ha : a.toNat < 256) : IntOp.cmpi .slt a 0#32 = 0#1 := by
  refine eq_zero_of_ne_one fun h => ?_
  have := (StableHlo.Predicate.slt_iff_toNat (a := a) (b := 0#32) (by omega) (by decide)).1 h
  simp at this

/-- … it is at least zero … -/
theorem sge_zero_of_lt {a : BitVec 32} (ha : a.toNat < 256) : IntOp.cmpi .sge a 0#32 = 1#1 :=
  (StableHlo.Predicate.sge_iff_toNat (a := a) (b := 0#32) (by omega) (by decide)).2 (Nat.zero_le _)

/-- … and at most 255. -/
theorem sle_255_of_lt {a : BitVec 32} (ha : a.toNat < 256) : IntOp.cmpi .sle a 255#32 = 1#1 :=
  (StableHlo.Predicate.sle_iff_toNat (a := a) (b := 255#32) (by omega) (by decide)).2 (by
    show a.toNat ≤ 255
    omega)

/-- Its signed value, as a natural number, is its unsigned value. -/
theorem toInt_toNat_of_lt {a : BitVec 32} (ha : a.toNat < 256) : a.toInt.toNat = a.toNat := by
  rw [StableHlo.Predicate.toInt_eq_toNat_of_lt (a := a) (by omega)]
  exact Int.toNat_natCast _

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-! ## The batched gather read at an index -/

local notation "G" => gather_S64x256x256_S64x8192x1_S64x8192x256_2_1_0_0_1_2_11256

/-- Result index `(b, e, n)` reads its start index's one component at start-indices index `(b, e, 0)`. -/
theorem gather_siIdx (b : Fin 64) (e : Fin 8192) (n : Fin 256) :
    GatherDims.siIdx G (ix3 b e n)
        ⟨List.idxOf (1 : Fin S64x256x256.rank) (GatherDims.startIndexMap G), List.idxOf_lt_length_iff.2 (List.mem_singleton.mpr rfl)⟩
      = ix3 b e (0 : Fin 1) := by
  funext a; refine Fin.ext ?_
  match a with
  | ⟨0, _⟩ => rfl
  | ⟨1, _⟩ => rfl
  | ⟨2, _⟩ => rfl

/-- The gather with batching axis 0, collapsed axis 1 and a whole row of 256 on axis 2, read at `(b, e, n)`: the operand
    at `(b, r, n)` where `r` is the start index `idx[b, e, 0]` read signed and clamped into `[0, 255]`. -/
theorem gather_apply {α : Type} (x : S64x256x256.Idx → α) (idx : IVec S64x8192x1 32) (b : Fin 64) (e : Fin 8192) (n : Fin 256) :
    Host.gather G x idx (ix3 b e n)
      = x (ix3 b (⟨min (idx (ix3 b e (0 : Fin 1))).toInt.toNat 255, by omega⟩ : Fin 256) n) := by
  unfold Host.gather
  refine congrArg x (funext fun a => Fin.ext ?_)
  match a with
  | ⟨0, _⟩ =>
    show GatherDims.start G (ix3 b e n) idx 0 + GatherDims.batchCoord G (ix3 b e n) 0 + GatherDims.offCoord G (ix3 b e n) 0 = b.val
    rw [GatherDims.start_batching G _ _ 0 (by decide), GatherDims.offCoord_eq_zero G _ 0 (by decide)]
    simp only [Nat.add_zero, Nat.zero_add]
    rfl
  | ⟨1, _⟩ =>
    show GatherDims.start G (ix3 b e n) idx 1 + GatherDims.batchCoord G (ix3 b e n) 1 + GatherDims.offCoord G (ix3 b e n) 1
      = min (idx (ix3 b e (0 : Fin 1))).toInt.toNat 255
    rw [GatherDims.batchCoord_eq_zero G _ 1 (by decide), GatherDims.offCoord_eq_zero G _ 1 (by decide)]
    simp only [Nat.add_zero]
    unfold GatherDims.start
    rw [dif_pos (show (1 : Fin S64x256x256.rank) ∈ GatherDims.startIndexMap G from List.mem_singleton.mpr rfl), gather_siIdx]
    rfl
  | ⟨2, _⟩ =>
    show GatherDims.start G (ix3 b e n) idx 2 + GatherDims.batchCoord G (ix3 b e n) 2 + GatherDims.offCoord G (ix3 b e n) 2 = n.val
    rw [GatherDims.batchCoord_eq_zero G _ 2 (by decide)]
    unfold GatherDims.start
    rw [dif_neg (by decide)]
    simp only [Nat.add_zero, Nat.zero_add]
    rfl

/-! ## The two calls under the range hypothesis -/

/-- With the index word below 256 the sign test fails, so the adjusted index is the word itself. -/
theorem call0_v4_eq (x2 : (⟨S64x8192, .i32⟩ : BufTy).Contents (Elt Ideal)) (h : ∀ i, (x2 i).toNat < 256) (i : S64x8192x1.Idx) :
    val_main_call0_v4 (F := Ideal) x2 i = x2 (idx_main_v1 i) := by
  rw [val_main_call0_v4_apply, val_main_call0_v1_apply, val_main_v1_apply, val_main_call0_v0_apply, val_main_call0_c_apply,
    slt_zero_of_lt (h _)]
  exact select_zero _ _

/-- … and it passes both range tests. -/
theorem call0_v10_eq (x2 : (⟨S64x8192, .i32⟩ : BufTy).Contents (Elt Ideal)) (h : ∀ i, (x2 i).toNat < 256) (i : S64x8192x1.Idx) :
    val_main_call0_v10 (F := Ideal) x2 i = 1#1 := by
  rw [val_main_call0_v10_apply, val_main_call0_v6_apply, val_main_call0_v9_apply, call0_v4_eq x2 h,
    val_main_call0_v5_apply, val_main_call0_c_2_apply, val_main_call0_v8_apply, val_main_call0_v7_apply, val_main_call0_c_1_apply,
    sge_zero_of_lt (h _), sle_255_of_lt (h _)]
  rfl

/-- The conjunction over the size-one last axis is then 1 everywhere. -/
theorem call0_v11_eq (x2 : (⟨S64x8192, .i32⟩ : BufTy).Contents (Elt Ideal)) (h : ∀ i, (x2 i).toNat < 256) (j : S64x8192.Idx) :
    val_main_call0_v11 (F := Ideal) x2 j = 1#1 := by
  unfold val_main_call0_v11
  rw [Host.reduce_eq_foldl]
  exact foldl_andi_one _ _ fun i _ => call0_v10_eq x2 h i

/-- The row the gather reads: the clamp and the signed reading leave a word below 256 as it is. -/
theorem call0_row (x2 : (⟨S64x8192, .i32⟩ : BufTy).Contents (Elt Ideal)) (h : ∀ i, (x2 i).toNat < 256) (b : Fin 64) (e : Fin 8192) :
    min (val_main_call0_v4 (F := Ideal) x2 (ix3 b e (0 : Fin 1))).toInt.toNat 255 = (x2 (ix2 b e)).toNat := by
  have hi : idx_main_v1 (ix3 b e (0 : Fin 1)) = ix2 b e :=
    funext fun a => Fin.ext (by match a with | ⟨0, _⟩ => rfl | ⟨1, _⟩ => rfl)
  rw [call0_v4_eq x2 h, hi, toInt_toNat_of_lt (h _)]
  exact Nat.min_eq_left (by have := h (ix2 b e); omega)

/-- With the index word below 256 the sign test fails, so the adjusted index is the word itself. -/
theorem call1_v4_eq (x3 : (⟨S64x8192, .i32⟩ : BufTy).Contents (Elt Ideal)) (h : ∀ i, (x3 i).toNat < 256) (i : S64x8192x1.Idx) :
    val_main_call1_v4 (F := Ideal) x3 i = x3 (idx_main_v3 i) := by
  rw [val_main_call1_v4_apply, val_main_call1_v1_apply, val_main_v3_apply, val_main_call1_v0_apply, val_main_call1_c_apply,
    slt_zero_of_lt (h _)]
  exact select_zero _ _

/-- … and it passes both range tests. -/
theorem call1_v10_eq (x3 : (⟨S64x8192, .i32⟩ : BufTy).Contents (Elt Ideal)) (h : ∀ i, (x3 i).toNat < 256) (i : S64x8192x1.Idx) :
    val_main_call1_v10 (F := Ideal) x3 i = 1#1 := by
  rw [val_main_call1_v10_apply, val_main_call1_v6_apply, val_main_call1_v9_apply, call1_v4_eq x3 h,
    val_main_call1_v5_apply, val_main_call1_c_2_apply, val_main_call1_v8_apply, val_main_call1_v7_apply, val_main_call1_c_1_apply,
    sge_zero_of_lt (h _), sle_255_of_lt (h _)]
  rfl

/-- The conjunction over the size-one last axis is then 1 everywhere. -/
theorem call1_v11_eq (x3 : (⟨S64x8192, .i32⟩ : BufTy).Contents (Elt Ideal)) (h : ∀ i, (x3 i).toNat < 256) (j : S64x8192.Idx) :
    val_main_call1_v11 (F := Ideal) x3 j = 1#1 := by
  unfold val_main_call1_v11
  rw [Host.reduce_eq_foldl]
  exact foldl_andi_one _ _ fun i _ => call1_v10_eq x3 h i

/-- The row the gather reads: the clamp and the signed reading leave a word below 256 as it is. -/
theorem call1_row (x3 : (⟨S64x8192, .i32⟩ : BufTy).Contents (Elt Ideal)) (h : ∀ i, (x3 i).toNat < 256) (b : Fin 64) (e : Fin 8192) :
    min (val_main_call1_v4 (F := Ideal) x3 (ix3 b e (0 : Fin 1))).toInt.toNat 255 = (x3 (ix2 b e)).toNat := by
  have hi : idx_main_v3 (ix3 b e (0 : Fin 1)) = ix2 b e :=
    funext fun a => Fin.ext (by match a with | ⟨0, _⟩ => rfl | ⟨1, _⟩ => rfl)
  rw [call1_v4_eq x3 h, hi, toInt_toNat_of_lt (h _)]
  exact Nat.min_eq_left (by have := h (ix2 b e); omega)

/-- The first gathered stage at `(b, e, n)`: the product matrix's row named by the edge's first index word. -/
theorem v2_eq (x0 : (⟨S64x256x256, .f32⟩ : BufTy).Contents (Elt Ideal)) (x1 : (⟨S256x256, .f32⟩ : BufTy).Contents (Elt Ideal))
    (x2 : (⟨S64x8192, .i32⟩ : BufTy).Contents (Elt Ideal)) (h2 : ∀ i, (x2 i).toNat < 256) (b : Fin 64) (e : Fin 8192) (n : Fin 256) :
    val_main_v2 (F := Ideal) x0 x1 x2 (ix3 b e n)
      = val_main_v0 (F := Ideal) x0 x1 (ix3 b (⟨(x2 (ix2 b e)).toNat, h2 _⟩ : Fin 256) n) := by
  rw [val_main_v2_apply, val_main_call0_v13_apply, call0_v11_eq x2 h2, select_one]
  unfold val_main_call0_v12
  rw [gather_apply]
  exact congrArg (fun r : Fin 256 => val_main_v0 (F := Ideal) x0 x1 (ix3 b r n)) (Fin.ext (call0_row x2 h2 b e))

/-- The second gathered stage at `(b, e, n)`: the sample matrix's row named by the edge's second index word. -/
theorem v4_eq (x0 : (⟨S64x256x256, .f32⟩ : BufTy).Contents (Elt Ideal))
    (x3 : (⟨S64x8192, .i32⟩ : BufTy).Contents (Elt Ideal)) (h3 : ∀ i, (x3 i).toNat < 256) (b : Fin 64) (e : Fin 8192) (n : Fin 256) :
    val_main_v4 (F := Ideal) x0 x3 (ix3 b e n) = x0 (ix3 b (⟨(x3 (ix2 b e)).toNat, h3 _⟩ : Fin 256) n) := by
  rw [val_main_v4_apply, val_main_call1_v13_apply, call1_v11_eq x3 h3, select_one]
  unfold val_main_call1_v12
  rw [gather_apply]
  exact congrArg (fun r : Fin 256 => x0 (ix3 b r n)) (Fin.ext (call1_row x3 h3 b e))

/-! ## The loss of one sample -/

/-- With every index word of both index arrays a row number below 256, the reference's per-sample loss at sample `b` is the
    sum over that sample's edges of the weight times the cost at the two rows the edge names. -/
theorem loss_apply (x0 : (⟨S64x256x256, .f32⟩ : BufTy).Contents (Elt Ideal)) (x1 : (⟨S256x256, .f32⟩ : BufTy).Contents (Elt Ideal))
    (x2 x3 : (⟨S64x8192, .i32⟩ : BufTy).Contents (Elt Ideal)) (x4 : (⟨S64x8192, .f32⟩ : BufTy).Contents (Elt Ideal))
    (h2 : ∀ i, (x2 i).toNat < 256) (h3 : ∀ i, (x3 i).toNat < 256) (b : Fin 64) :
    val_main_v8 (F := Ideal) x0 x1 x2 x3 x4 (ix1 b)
      = refLoss (fun i k => x0 (ix3 b i k)) (fun k n => x1 (ix2 k n))
          (fun e => ⟨(x2 (ix2 b e)).toNat, h2 _⟩) (fun e => ⟨(x3 (ix2 b e)).toNat, h3 _⟩) (fun e => x4 (ix2 b e)) := by
  rw [val_main_v8_apply]
  have z0 : val_main_cst_0 (F := Ideal) (Shape.Idx.first h_S_) = 0 := Ideal.ofBits_zero_f32
  rw [z0, zero_add]
  unfold refLoss
  refine Finset.sum_congr rfl fun e _ => ?_
  have he : idx_main_v8 (ix1 b) e = ix2 b e :=
    funext fun a => Fin.ext (by match a with | ⟨0, _⟩ => rfl | ⟨1, _⟩ => rfl)
  rw [he, val_main_v7_apply]
  refine congrArg (x4 (ix2 b e) * ·) ?_
  rw [val_main_v6_apply]
  have z1 : val_main_cst (F := Ideal) (Shape.Idx.first h_S_) = 0 := Ideal.ofBits_zero_f32
  rw [z1, zero_add]
  unfold pairCost
  refine Finset.sum_congr rfl fun n _ => ?_
  have hn : idx_main_v6 (ix2 b e) n = ix3 b e n :=
    funext fun a => Fin.ext (by match a with | ⟨0, _⟩ => rfl | ⟨1, _⟩ => rfl | ⟨2, _⟩ => rfl)
  rw [hn, val_main_v5_apply, v2_eq x0 x1 x2 h2, v4_eq x0 x3 h3, val_main_v0_apply]
  refine congrArg (· * x0 (ix3 b (⟨(x3 (ix2 b e)).toNat, h3 _⟩ : Fin 256) n)) (Finset.sum_congr rfl fun k _ => ?_)
  have hl : lidx_main_v0 (ix3 b (⟨(x2 (ix2 b e)).toNat, h2 _⟩ : Fin 256) n) k = ix3 b (⟨(x2 (ix2 b e)).toNat, h2 _⟩ : Fin 256) k :=
    funext fun a => Fin.ext (by match a with | ⟨0, _⟩ => rfl | ⟨1, _⟩ => rfl | ⟨2, _⟩ => rfl)
  have hr : ridx_main_v0 (ix3 b (⟨(x2 (ix2 b e)).toNat, h2 _⟩ : Fin 256) n) k = ix2 k n :=
    funext fun a => Fin.ext (by match a with | ⟨0, _⟩ => rfl | ⟨1, _⟩ => rfl)
  rw [hl, hr]

end Cert.ReferenceIdeal.RefValue

end
-- ==== Proof.KernelValue.lean ====
/-
  What the kernel's body stores for one sample, as a number: read at its one index, the stored 1 × 1 × 1 value is the one-hot
  form of the sample's loss (`Cert.EdgeSum.kerLoss`) of the five blocks the body loads.

  Read from the outside in. The stored value is the column sum, over the 256 rows `i`, of the row sums, over the 256 columns
  `j`, of the product `A[i, j] · c[i, j]`. `A` is the product of the weighted one-hot matrix `[i = i_e] · w_e` with the
  transposed one-hot matrix `[j = j_e]`, summed over the 8192 edges; its entries compare the row number, as a 32-bit word, with the
  edge's index word. `c` is `Q · Pᵀ` with `Q = P · d`. At the ideal values a change of float format is the identity, a product
  into a zero accumulator is the plain sum over the contracted axis, a lane sum is the sum over that axis, and the 16-bit words
  `0x0000` and `0x3F80` are the numbers 0 and 1.
-/
import proofs.«401316_j816043786441_3_alg».proof.Proof.Gen.KernelIdeal.Skeleton
import proofs.«401316_j816043786441_3_alg».proof.Proof.EdgeSum
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.KerValue

open Cert.KernelIdeal Cert.KernelIdeal.Gen Cert.EdgeSum
open Idealize.ShloMosaic Idealize.ShloMosaic.ValueIdx

/-! ## The two 16-bit constants -/

theorem bf16_zero : Ideal.ofBits .bf16 0x0000#16 = 0 := by simp [Ideal.ofBits, Ideal.ieee]

theorem bf16_one : Ideal.ofBits .bf16 0x3F80#16 = 1 := by
  have h : ((128 : ℝ) * ((2 : ℝ) ^ 7)⁻¹ : ℝ) = 1 := by norm_num
  simp [Ideal.ofBits, Ideal.ieee]
  exact_mod_cast h

/-! ## The three products, each read at one entry -/

theorem lhsPQ_0 (j : S256x256.Idx) (q : dot_S256x256_S256x256_S256x256_1_0_0_1_n_n.contr.Idx) :
    (dot_S256x256_S256x256_S256x256_1_0_0_1_n_n.lhsIdx j q 0).val = (j 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhsPQ_1 (j : S256x256.Idx) (q : dot_S256x256_S256x256_S256x256_1_0_0_1_n_n.contr.Idx) :
    (dot_S256x256_S256x256_S256x256_1_0_0_1_n_n.lhsIdx j q 1).val = (q ⟨0, by decide⟩).val :=
  dot_S256x256_S256x256_S256x256_1_0_0_1_n_n.lhsIdx_val_of_single rfl j q
theorem rhsPQ_0 (j : S256x256.Idx) (q : dot_S256x256_S256x256_S256x256_1_0_0_1_n_n.contr.Idx) :
    (dot_S256x256_S256x256_S256x256_1_0_0_1_n_n.rhsIdx j q 0).val = (q ⟨0, by decide⟩).val :=
  dot_S256x256_S256x256_S256x256_1_0_0_1_n_n.rhsIdx_val_of_single rfl j q
theorem rhsPQ_1 (j : S256x256.Idx) (q : dot_S256x256_S256x256_S256x256_1_0_0_1_n_n.contr.Idx) :
    (dot_S256x256_S256x256_S256x256_1_0_0_1_n_n.rhsIdx j q 1).val = (j 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- `Q = P · d`: entry (i, n) is the sum over k of `P[i, k] · d[k, n]`. -/
theorem prodPQ_apply (l r : FVec Ideal S256x256 .bf16) (i n : Fin 256) :
    matmul dot_S256x256_S256x256_S256x256_1_0_0_1_n_n none l r (constant (F := Ideal) S256x256 .f32 0x00000000#32) (ix2 i n)
      = ∑ k : Fin 256, l (ix2 i k) * r (ix2 k n) := by
  simp only [matmul]
  rw [Ideal.matmul_constant_zero_apply, ← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 i n) ((ValueIdx.contrEquiv1 dot_S256x256_S256x256_S256x256_1_0_0_1_n_n 256 rfl rfl).symm k) = ix2 i k := funext fun a => Fin.ext (by
    match a with
    | ⟨0, _⟩ => exact lhsPQ_0 _ _
    | ⟨1, _⟩ => exact (lhsPQ_1 _ _).trans hk)
  have er : dot_S256x256_S256x256_S256x256_1_0_0_1_n_n.rhsIdx (ix2 i n) ((ValueIdx.contrEquiv1 dot_S256x256_S256x256_S256x256_1_0_0_1_n_n 256 rfl rfl).symm k) = ix2 k n := funext fun a => Fin.ext (by
    match a with
    | ⟨0, _⟩ => exact (rhsPQ_0 _ _).trans hk
    | ⟨1, _⟩ => exact rhsPQ_1 _ _)
  rw [el, er]

theorem lhsA_0 (j : S256x256.Idx) (q : dot_S256x8192_S256x8192_S256x256_1_1_0_0_n_n.contr.Idx) :
    (dot_S256x8192_S256x8192_S256x256_1_1_0_0_n_n.lhsIdx j q 0).val = (j 0).val := by
  unfold DotDims.lhsIdx
  rw [dif_neg (show ¬(0 : Fin S256x8192.rank) ∈ dot_S256x8192_S256x8192_S256x256_1_1_0_0_n_n.lhsBatch by decide), dif_pos (show (0 : Fin S256x8192.rank) ∈ dot_S256x8192_S256x8192_S256x256_1_1_0_0_n_n.lhsNonContracting by decide)]
  rfl
theorem lhsA_1 (j : S256x256.Idx) (q : dot_S256x8192_S256x8192_S256x256_1_1_0_0_n_n.contr.Idx) :
    (dot_S256x8192_S256x8192_S256x256_1_1_0_0_n_n.lhsIdx j q 1).val = (q ⟨0, by decide⟩).val :=
  dot_S256x8192_S256x8192_S256x256_1_1_0_0_n_n.lhsIdx_val_of_single rfl j q
theorem rhsA_0 (j : S256x256.Idx) (q : dot_S256x8192_S256x8192_S256x256_1_1_0_0_n_n.contr.Idx) :
    (dot_S256x8192_S256x8192_S256x256_1_1_0_0_n_n.rhsIdx j q 0).val = (j 1).val := by
  unfold DotDims.rhsIdx
  rw [dif_neg (show ¬(0 : Fin S256x8192.rank) ∈ dot_S256x8192_S256x8192_S256x256_1_1_0_0_n_n.rhsBatch by decide), dif_pos (show (0 : Fin S256x8192.rank) ∈ dot_S256x8192_S256x8192_S256x256_1_1_0_0_n_n.rhsNonContracting by decide)]
  rfl
theorem rhsA_1 (j : S256x256.Idx) (q : dot_S256x8192_S256x8192_S256x256_1_1_0_0_n_n.contr.Idx) :
    (dot_S256x8192_S256x8192_S256x256_1_1_0_0_n_n.rhsIdx j q 1).val = (q ⟨0, by decide⟩).val :=
  dot_S256x8192_S256x8192_S256x256_1_1_0_0_n_n.rhsIdx_val_of_single rfl j q

/-- `A = U · Vᵀ` over the edge axis: entry (i, j) is the sum over the edges e of `U[i, e] · V[j, e]`. -/
theorem prodA_apply (l r : FVec Ideal S256x8192 .bf16) (i j : Fin 256) :
    matmul dot_S256x8192_S256x8192_S256x256_1_1_0_0_n_n none l r (constant (F := Ideal) S256x256 .f32 0x00000000#32) (ix2 i j)
      = ∑ e : Fin 8192, l (ix2 i e) * r (ix2 j e) := by
  simp only [matmul]
  rw [Ideal.matmul_constant_zero_apply, ← Equiv.sum_comp (ValueIdx.contrEquiv1 dot_S256x8192_S256x8192_S256x256_1_1_0_0_n_n 8192 rfl rfl).symm]
  refine Finset.sum_congr rfl fun k _ => ?_
  have hk := ValueIdx.contrEquiv1_symm_val dot_S256x8192_S256x8192_S256x256_1_1_0_0_n_n 8192 rfl rfl k
  have el : dot_S256x8192_S256x8192_S256x256_1_1_0_0_n_n.lhsIdx (ix2 i j) ((ValueIdx.contrEquiv1 dot_S256x8192_S256x8192_S256x256_1_1_0_0_n_n 8192 rfl rfl).symm k) = ix2 i k := funext fun a => Fin.ext (by
    match a with
    | ⟨0, _⟩ => exact lhsA_0 _ _
    | ⟨1, _⟩ => exact (lhsA_1 _ _).trans hk)
  have er : dot_S256x8192_S256x8192_S256x256_1_1_0_0_n_n.rhsIdx (ix2 i j) ((ValueIdx.contrEquiv1 dot_S256x8192_S256x8192_S256x256_1_1_0_0_n_n 8192 rfl rfl).symm k) = ix2 j k := funext fun a => Fin.ext (by
    match a with
    | ⟨0, _⟩ => exact rhsA_0 _ _
    | ⟨1, _⟩ => exact (rhsA_1 _ _).trans hk)
  rw [el, er]

theorem lhsC_0 (j : S256x256.Idx) (q : dot_S256x256_S256x256_S256x256_1_1_0_0_n_n.contr.Idx) :
    (dot_S256x256_S256x256_S256x256_1_1_0_0_n_n.lhsIdx j q 0).val = (j 0).val := by
  unfold DotDims.lhsIdx
  rw [dif_neg (show ¬(0 : Fin S256x256.rank) ∈ dot_S256x256_S256x256_S256x256_1_1_0_0_n_n.lhsBatch by decide), dif_pos (show (0 : Fin S256x256.rank) ∈ dot_S256x256_S256x256_S256x256_1_1_0_0_n_n.lhsNonContracting by decide)]
  rfl
theorem lhsC_1 (j : S256x256.Idx) (q : dot_S256x256_S256x256_S256x256_1_1_0_0_n_n.contr.Idx) :
    (dot_S256x256_S256x256_S256x256_1_1_0_0_n_n.lhsIdx j q 1).val = (q ⟨0, by decide⟩).val :=
  dot_S256x256_S256x256_S256x256_1_1_0_0_n_n.lhsIdx_val_of_single rfl j q
theorem rhsC_0 (j : S256x256.Idx) (q : dot_S256x256_S256x256_S256x256_1_1_0_0_n_n.contr.Idx) :
    (dot_S256x256_S256x256_S256x256_1_1_0_0_n_n.rhsIdx j q 0).val = (j 1).val := by
  unfold DotDims.rhsIdx
  rw [dif_neg (show ¬(0 : Fin S256x256.rank) ∈ dot_S256x256_S256x256_S256x256_1_1_0_0_n_n.rhsBatch by decide), dif_pos (show (0 : Fin S256x256.rank) ∈ dot_S256x256_S256x256_S256x256_1_1_0_0_n_n.rhsNonContracting by decide)]
  rfl
theorem rhsC_1 (j : S256x256.Idx) (q : dot_S256x256_S256x256_S256x256_1_1_0_0_n_n.contr.Idx) :
    (dot_S256x256_S256x256_S256x256_1_1_0_0_n_n.rhsIdx j q 1).val = (q ⟨0, by decide⟩).val :=
  dot_S256x256_S256x256_S256x256_1_1_0_0_n_n.rhsIdx_val_of_single rfl j q

/-- `c = Q · Pᵀ`: entry (i, j) is the sum over n of `Q[i, n] · P[j, n]`. -/
theorem prodC_apply (l r : FVec Ideal S256x256 .bf16) (i j : Fin 256) :
    matmul dot_S256x256_S256x256_S256x256_1_1_0_0_n_n none l r (constant (F := Ideal) S256x256 .f32 0x00000000#32) (ix2 i j)
      = ∑ n : Fin 256, l (ix2 i n) * r (ix2 j n) := by
  simp only [matmul]
  rw [Ideal.matmul_constant_zero_apply, ← Equiv.sum_comp (ValueIdx.contrEquiv1 dot_S256x256_S256x256_S256x256_1_1_0_0_n_n 256 rfl rfl).symm]
  refine Finset.sum_congr rfl fun k _ => ?_
  have hk := ValueIdx.contrEquiv1_symm_val dot_S256x256_S256x256_S256x256_1_1_0_0_n_n 256 rfl rfl k
  have el : dot_S256x256_S256x256_S256x256_1_1_0_0_n_n.lhsIdx (ix2 i j) ((ValueIdx.contrEquiv1 dot_S256x256_S256x256_S256x256_1_1_0_0_n_n 256 rfl rfl).symm k) = ix2 i k := funext fun a => Fin.ext (by
    match a with
    | ⟨0, _⟩ => exact lhsC_0 _ _
    | ⟨1, _⟩ => exact (lhsC_1 _ _).trans hk)
  have er : dot_S256x256_S256x256_S256x256_1_1_0_0_n_n.rhsIdx (ix2 i j) ((ValueIdx.contrEquiv1 dot_S256x256_S256x256_S256x256_1_1_0_0_n_n 256 rfl rfl).symm k) = ix2 j k := funext fun a => Fin.ext (by
    match a with
    | ⟨0, _⟩ => exact rhsC_0 _ _
    | ⟨1, _⟩ => exact (rhsC_1 _ _).trans hk)
  rw [el, er]

/-! ## The two lane sums and the column cast between them -/

/-- The sum along the second axis of a 256 × 256 array, at row i: the sum over the columns j. -/
theorem rowSum_apply (src : FVec Ideal S256x256 .f32) (h : S256x256.Reduces [1] S256) (hφ : FKind.Formats .f32)
    (hacc : (0x00000000#32 : BitVec 32) = FKind.add.neutral .f32 hφ) (i : Fin 256) :
    multiReduction .add [1] S256 src 0x00000000#32 h hφ hacc (ix1 i) = ∑ j : Fin 256, src (ix2 i j) := by
  refine (Ideal.multiReduction_add_single src _ h hφ hacc (ix1 i)).trans ?_
  refine Finset.sum_congr rfl fun j _ => congrArg src ?_
  funext a; apply Fin.ext
  match a with
  | ⟨0, _⟩ => rfl
  | ⟨1, _⟩ => rfl

/-- The sum along the first axis of a 256 × 1 column, at its one index: the sum over the rows i. -/
theorem colSum_apply (src : FVec Ideal S256x1 .f32) (h : S256x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ i : Fin 256, src (ix2 i u) := by
  refine (Ideal.multiReduction_add_single src _ h hφ hacc (ix1 u)).trans ?_
  refine Finset.sum_congr rfl fun i _ => congrArg src ?_
  funext a; apply Fin.ext
  match a with
  | ⟨0, _⟩ => rfl
  | ⟨1, _⟩ => rfl

/-- A vector of 256 entries kept as a 256 × 1 column reads, at (i, u), the vector at i. -/
theorem column_apply {α : Type} (x : S256.Idx → α) (h : S256.ShapeCasts S256x1) (i : Fin 256) (u : Fin 1) :
    shapeCast S256x1 x h (ix2 i u) = x (ix1 i) :=
  shapeCast_apply x h _ _ (by
    have hu : u.val = 0 := by omega
    rw [Shape.rowMajor_val_one, Shape.rowMajor_val_two]
    show i.val = i.val * 1 + u.val
    rw [hu]; omega)

/-! ## One row of 8192 entries laid over 256 rows -/

/-- A 1 × 1 × 8192 block viewed as one row and laid over 256 rows reads, at (i, e), the block at e. -/
theorem rowOver_apply {α : Type} (v : S1x1x8192.Idx → α) (h : S1x1x8192.ShapeCasts S1x8192) (hb : S1x8192.Broadcasts S256x8192)
    (i : Fin 256) (e : Fin 8192) :
    broadcastTo S256x8192 (shapeCast S1x8192 v h) hb (ix2 i e) = v (ix3 (0 : Fin 1) (0 : Fin 1) e) :=
  (broadcastTo_1b_ab_apply _ hb i e).trans (shapeCast_1ab_ab_apply v h (0 : Fin 1) e)

/-! ## The stored value -/

set_option maxHeartbeats 1000000 in
/-- THE PAYLOAD AT ITS INDEX: the one-hot form of the loss of the five loaded blocks. -/
theorem pay_apply (x0 : Vec Ideal S1x256x256 .bf16) (x1 : Vec Ideal S256x256 .bf16) (x2 x3 : Vec Ideal S1x1x8192 .i32)
    (x4 : Vec Ideal S1x1x8192 .f32) (y : S1x1x1.Idx) :
    (k0_pay1 (F := Ideal) x0 x1 x2 x3 x4) y
      = kerLoss (fun i k => x0 (ix3 (0 : Fin 1) i k)) (fun k n => x1 (ix2 k n))
          (fun e => x2 (ix3 (0 : Fin 1) (0 : Fin 1) e)) (fun e => x3 (ix3 (0 : Fin 1) (0 : Fin 1) e))
          (fun e => x4 (ix3 (0 : Fin 1) (0 : Fin 1) e)) := by
  obtain ⟨u0, u1, u2, rfl⟩ : ∃ (u0 u1 u2 : Fin 1), y = ix3 u0 u1 u2 := ⟨y 0, y 1, y 2, eq_ix3 y⟩
  unfold k0_pay1
  dsimp only
  refine (shapeCast_ab_1ab_apply _ _ u0 u1 u2).trans ?_
  refine (shapeCast_a_1a_apply _ _ u1 u2).trans ?_
  refine (colSum_apply _ _ _ _ u2).trans ?_
  unfold kerLoss
  refine Finset.sum_congr rfl fun i _ => ?_
  refine (column_apply _ _ i u2).trans ?_
  refine (rowSum_apply _ _ _ _ i).trans ?_
  refine Finset.sum_congr rfl fun j _ => ?_
  show _ * _ = _ * _
  congr 1
  · -- the contraction of the two one-hot matrices
    refine (prodA_apply _ _ i j).trans ?_
    refine Finset.sum_congr rfl fun e _ => ?_
    congr 1
    · show Scalar.select (IntOp.cmpi .eq _ _) _ _ = _
      rw [iota_single_apply, rowOver_apply, broadcastTo_1b_ab_apply, shapeCast_self]
      show (if IntOp.cmpi .eq (BitVec.ofNat 32 i.val) (x2 (ix3 (0 : Fin 1) (0 : Fin 1) e)) = 1 then _ else _) = _
      refine (if_congr StableHlo.Predicate.cmpi_eq_iff ?_ bf16_zero)
      exact shapeCast_1ab_ab_apply x4 _ (0 : Fin 1) e
    · show Scalar.select (IntOp.cmpi .eq _ _) _ _ = _
      rw [iota_single_apply, rowOver_apply]
      exact (if_congr StableHlo.Predicate.cmpi_eq_iff bf16_one bf16_zero)
  · -- the quadratic form
    unfold pairCost
    refine (prodC_apply _ _ i j).trans ?_
    refine Finset.sum_congr rfl fun n _ => ?_
    congr 1
    · refine (prodPQ_apply _ _ i n).trans ?_
      refine Finset.sum_congr rfl fun k _ => ?_
      rw [shapeCast_1ab_ab_apply, shapeCast_self]
    · exact shapeCast_1ab_ab_apply x0 _ j n

end Cert.KernelIdeal.KerValue

end
-- ==== Proof.KernelRun.lean ====
/-
  The kernel program's run, read as values at the ideal instance.

  The program casts `P` and `d` to a narrower float format (the identity at the ideal values) and views each of the three
  [64, 8192] inputs as [64, 1, 8192]. The grid has one point per sample. At point t the body sees sample t's matrix, the
  whole of `d`, and sample t's three edge rows, and writes one number into entry (t, 0, 0) of the [64, 1, 1] result: by
  `KerValue.pay_apply`, the one-hot form of sample t's loss. The 64 blocks tile the result, so after the region entry
  (b, 0, 0) holds sample b's loss. The lines after the region view that array as 64 numbers, divide each by the larger of
  the sample's weight sum and a small constant, and average: a tail that is applied, unopened, to the vector of losses.
-/
import proofs.«401316_j816043786441_3_alg».proof.Proof.Gen.KernelIdeal.Frame
import proofs.«401316_j816043786441_3_alg».proof.Proof.KernelValue
import Idealize.ShloMosaic.Lib.Pipeline.Value
import Idealize.ShloMosaic.Lib.StableHlo.Run
import Idealize.ShloMosaic.Lib.Tactic

set_option maxRecDepth 16384

noncomputable section

open scoped BigOperators

namespace Cert.KernelIdeal.KerRun

open Cert.KernelIdeal Cert.KernelIdeal.Gen Cert.EdgeSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The five arguments, and a grid point as a sample number -/

abbrev argP (c : Dev nD) : S64x256x256.Idx → EReal := m ((c : Thread nD τ).loc main_arg0)
abbrev argD (c : Dev nD) : S256x256.Idx → EReal := m ((c : Thread nD τ).loc main_arg1)
abbrev argI (c : Dev nD) : S64x8192.Idx → BitVec 32 := m ((c : Thread nD τ).loc main_arg2)
abbrev argJ (c : Dev nD) : S64x8192.Idx → BitVec 32 := m ((c : Thread nD τ).loc main_arg3)
abbrev argW (c : Dev nD) : S64x8192.Idx → EReal := m ((c : Thread nD τ).loc main_arg4)

theorem N64 : cfg0.N = 64 := N_0

/-- The grid point's number, as a sample number. -/
def smp (t : Fin cfg0.N) : Fin 64 := ⟨t.val, Nat.lt_of_lt_of_eq t.isLt N64⟩

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: every window but `d`'s moves along its first axis with the point;
    `d`'s stays at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-! ## What the region finds in its staged arrays -/

/-- A [64, 8192] array viewed as [64, 1, 8192] reads, at (b, u, e), the array at (b, e). -/
theorem mid_apply {α : Type} (x : S64x8192.Idx → α) (h : S64x8192.ShapeCasts S64x1x8192) (b : Fin 64) (u : Fin 1) (e : Fin 8192) :
    shapeCast S64x1x8192 x h (ix3 b u e) = x (ix2 b e) :=
  shapeCast_apply x h _ _ (by
    have hu : u.val = 0 := by omega
    rw [Shape.rowMajor_val_two, Shape.rowMajor_val_three]
    show b.val * 8192 + e.val = (b.val * 1 + u.val) * 8192 + e.val
    rw [hu]; omega)

theorem V_P (c : Dev nD) : (V m c main_v0 : S64x256x256.Idx → EReal) = argP m c := by
  show StableHlo.after hostOps0 (fun b => m (c, b)) (Proc.devRef .tc main_v0) = _
  after_results
  rfl

theorem V_D (c : Dev nD) : (V m c main_v1 : S256x256.Idx → EReal) = argD m c := by
  show StableHlo.after hostOps0 (fun b => m (c, b)) (Proc.devRef .tc main_v1) = _
  after_results
  rfl

theorem V_I (c : Dev nD) : (V m c main_v2 : S64x1x8192.Idx → BitVec 32) = shapeCast S64x1x8192 (argI m c) shapeCasts_S64x8192_S64x1x8192 := by
  show StableHlo.after hostOps0 (fun b => m (c, b)) (Proc.devRef .tc main_v2) = _
  after_results
  rfl

theorem V_J (c : Dev nD) : (V m c main_v3 : S64x1x8192.Idx → BitVec 32) = shapeCast S64x1x8192 (argJ m c) shapeCasts_S64x8192_S64x1x8192 := by
  show StableHlo.after hostOps0 (fun b => m (c, b)) (Proc.devRef .tc main_v3) = _
  after_results
  rfl

theorem V_W (c : Dev nD) : (V m c main_v4 : S64x1x8192.Idx → EReal) = shapeCast S64x1x8192 (argW m c) shapeCasts_S64x8192_S64x1x8192 := by
  show StableHlo.after hostOps0 (fun b => m (c, b)) (Proc.devRef .tc main_v4) = _
  after_results
  rfl

/-! ## Each window's block at a point, read at an entry -/

theorem blkP_apply (c : Dev nD) (t : Fin cfg0.N) (i k : Fin 256) :
    (iblk m c 0 t : S1x256x256.Idx → EReal) (ix3 (0 : Fin 1) i k) = argP m c (ix3 (smp t) i k) := by
  obtain ⟨e0, e1, e2, -⟩ := idx_facts t
  rw [← V_P m c]
  show (V m c main_v0 : S64x256x256.Idx → EReal) (((cfg0.win 0).blk t).view.emb (ix3 (0 : Fin 1) i k)) = _
  refine congrArg (V m c main_v0 : S64x256x256.Idx → EReal) (funext fun a => Fin.ext ?_)
  match a with
  | ⟨0, _⟩ => show win0_0.index t (0 : Fin 3) * 1 + 1 * 0 = t.val; omega
  | ⟨1, _⟩ => show win0_0.index t (1 : Fin 3) * 256 + 1 * i.val = i.val; omega
  | ⟨2, _⟩ => show win0_0.index t (2 : Fin 3) * 256 + 1 * k.val = k.val; omega

theorem blkD_apply (c : Dev nD) (t : Fin cfg0.N) (k n : Fin 256) :
    (iblk m c 1 t : S256x256.Idx → EReal) (ix2 k n) = argD m c (ix2 k n) := by
  obtain ⟨-, -, -, e0, e1, -⟩ := idx_facts t
  rw [← V_D m c]
  show (V m c main_v1 : S256x256.Idx → EReal) (((cfg0.win 1).blk t).view.emb (ix2 k n)) = _
  refine congrArg (V m c main_v1 : S256x256.Idx → EReal) (funext fun a => Fin.ext ?_)
  match a with
  | ⟨0, _⟩ => show win0_1.index t (0 : Fin 2) * 256 + 1 * k.val = k.val; omega
  | ⟨1, _⟩ => show win0_1.index t (1 : Fin 2) * 256 + 1 * n.val = n.val; omega

theorem blkI_apply (c : Dev nD) (t : Fin cfg0.N) (e : Fin 8192) :
    (iblk m c 2 t : S1x1x8192.Idx → BitVec 32) (ix3 (0 : Fin 1) (0 : Fin 1) e) = argI m c (ix2 (smp t) e) := by
  obtain ⟨-, -, -, -, -, e0, e1, e2, -⟩ := idx_facts t
  refine Eq.trans ?_ (mid_apply (argI m c) shapeCasts_S64x8192_S64x1x8192 (smp t) (0 : Fin 1) e)
  rw [← V_I m c]
  show (V m c main_v2 : S64x1x8192.Idx → BitVec 32) (((cfg0.win 2).blk t).view.emb (ix3 (0 : Fin 1) (0 : Fin 1) e)) = _
  refine congrArg (V m c main_v2 : S64x1x8192.Idx → BitVec 32) (funext fun a => Fin.ext ?_)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 8192 + 1 * e.val = e.val; omega

theorem blkJ_apply (c : Dev nD) (t : Fin cfg0.N) (e : Fin 8192) :
    (iblk m c 3 t : S1x1x8192.Idx → BitVec 32) (ix3 (0 : Fin 1) (0 : Fin 1) e) = argJ m c (ix2 (smp t) e) := by
  obtain ⟨-, -, -, -, -, -, -, -, e0, e1, e2, -⟩ := idx_facts t
  refine Eq.trans ?_ (mid_apply (argJ m c) shapeCasts_S64x8192_S64x1x8192 (smp t) (0 : Fin 1) e)
  rw [← V_J m c]
  show (V m c main_v3 : S64x1x8192.Idx → BitVec 32) (((cfg0.win 3).blk t).view.emb (ix3 (0 : Fin 1) (0 : Fin 1) e)) = _
  refine congrArg (V m c main_v3 : S64x1x8192.Idx → BitVec 32) (funext fun a => Fin.ext ?_)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 8192 + 1 * e.val = e.val; omega

theorem blkW_apply (c : Dev nD) (t : Fin cfg0.N) (e : Fin 8192) :
    (iblk m c 4 t : S1x1x8192.Idx → EReal) (ix3 (0 : Fin 1) (0 : Fin 1) e) = argW m c (ix2 (smp t) e) := by
  obtain ⟨-, -, -, -, -, -, -, -, -, -, -, e0, e1, e2, -⟩ := idx_facts t
  refine Eq.trans ?_ (mid_apply (argW m c) shapeCasts_S64x8192_S64x1x8192 (smp t) (0 : Fin 1) e)
  rw [← V_W m c]
  show (V m c main_v4 : S64x1x8192.Idx → EReal) (((cfg0.win 4).blk t).view.emb (ix3 (0 : Fin 1) (0 : Fin 1) e)) = _
  refine congrArg (V m c main_v4 : S64x1x8192.Idx → EReal) (funext fun a => Fin.ext ?_)
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 8192 + 1 * e.val = e.val; omega

/-! ## The result array after the region -/

/-- Sample b's loss in its one-hot form, of the five arguments. -/
def lossAt (c : Dev nD) (b : Fin 64) : EReal :=
  kerLoss (fun i k => argP m c (ix3 b i k)) (fun k n => argD m c (ix2 k n))
    (fun e => argI m c (ix2 b e)) (fun e => argJ m c (ix2 b e)) (fun e => argW m c (ix2 b e))

/-- The [64, 1, 1] result: entry (b, 0, 0) is sample b's loss. -/
def lossArr (c : Dev nD) : S64x1x1.Idx → EReal := fun idx => lossAt m c ⟨(idx 0).val, (idx 0).isLt⟩

/-- WHAT POINT t WRITES BACK is block t of `lossArr`. -/
theorem flushed5_eq (c : Dev nD) (t : Fin cfg0.N) :
    (dats m 0 c).flushed 5 t = ((cfg0.win 5).blk t).view.read (Elt Ideal) (lossArr m c) := by
  obtain ⟨-, -, -, -, -, -, -, -, -, -, -, -, -, -, e0, e1, e2⟩ := idx_facts t
  show (cfg0.win 5).cut (grid0.coords t) ((dats m 0 c).after 5 t) = _
  rw [after0_5]
  unfold out0_5
  rw [View.canon_unit_zero hz3]
  simp only [View.ld_unit_zero (S := S1x256x256) hz3, View.ld_unit_zero (S := S256x256) hz2, View.ld_unit_zero (S := S1x1x8192) hz3]
  funext y
  show (k0_pay1 (F := Ideal) (iblk m c 0 t) (iblk m c 1 t) (iblk m c 2 t) (iblk m c 3 t) (iblk m c 4 t)) y
    = lossArr m c (((cfg0.win 5).blk t).view.emb y)
  refine (KerValue.pay_apply _ _ _ _ _ y).trans ?_
  have hrow : (⟨((((cfg0.win 5).blk t).view.emb y) 0).val, ((((cfg0.win 5).blk t).view.emb y) 0).isLt⟩ : Fin 64) = smp t := by
    apply Fin.ext
    show win0_5.index t (0 : Fin 3) * 1 + 1 * (y 0).val = t.val
    have hy : (y 0).val < 1 := (y 0).isLt
    omega
  unfold lossArr lossAt
  rw [hrow]
  refine congr (congr (congr (congr (congrArg kerLoss ?_) ?_) ?_) ?_) ?_
  · exact funext fun i => funext fun k => blkP_apply m c t i k
  · exact funext fun k => funext fun n => blkD_apply m c t k n
  · exact funext fun e => blkI_apply m c t e
  · exact funext fun e => blkJ_apply m c t e
  · exact funext fun e => blkW_apply m c t e

/-- An index of the result is in point t's block iff each coordinate is in the block's range on its axis. -/
theorem mem_blk5 (t : Fin cfg0.N) (i : S64x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v5).slice (win0_5.rect t)).set ↔ _
  rw [View.set_slice_whole, Rect.mem_set_unit]
  exact Iff.rfl

/-- The 64 blocks tile the result: entry (b, 0, 0) is in point b's block. -/
theorem cover5 (i : S64x1x1.Idx) : ∃ t : Fin cfg0.N, (cfg0.win 5).flush t = true ∧ i ∈ ((cfg0.win 5).blk t).view.set := by
  have h0 : (i 0).val < 64 := (i 0).isLt
  have h1 : (i 1).val < 1 := (i 1).isLt
  have h2 : (i 2).val < 1 := (i 2).isLt
  let t : Fin cfg0.N := ⟨(i 0).val, Nat.lt_of_lt_of_eq h0 N64.symm⟩
  obtain ⟨-, -, -, -, -, -, -, -, -, -, -, -, -, -, e0, e1, e2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; rw [e0]; show (i 0).val * 1 ≤ (i 0).val ∧ (i 0).val < (i 0).val * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 1 ≤ (i 2).val ∧ (i 2).val < win0_5.index t (2 : Fin 3) * 1 + 1; omega

/-- THE RESULT ARRAY after the region is `lossArr`. -/
theorem final5 (c : Dev nD) : (dats m 0 c).arrAt 5 cfg0.N = lossArr m c :=
  (dats m 0 c).arrAt_eq_of_cover 5 (lossArr m c) (fun t _ => flushed5_eq m c t) cover5

/-! ## The lines after the region -/

/-- The tail both programs share, as one function of the vector of losses and of the weights: each loss over the larger of
    its sample's weight sum and a small constant, then the mean over the 64 samples. -/
def tail (L : S64.Idx → EReal) (w : S64x8192.Idx → EReal) : S_.Idx → EReal :=
  Host.divf (F := Ideal) (φ := .f32)
    (Host.reduceAdd (F := Ideal) (φ := .f32)
      (Host.divf (F := Ideal) (φ := .f32) L
        (maximumf (F := Ideal) (φ := .f32)
          (Host.reduceAdd (F := Ideal) (φ := .f32) w (constant (F := Ideal) S_ .f32 0x00000000#32) reducesTo_S64x8192_S64_d1 h_S_)
          (broadcastInDim S64 ![] bcast_S_S64 (constant (F := Ideal) S_ .f32 0x322BCC77#32))))
      (constant (F := Ideal) S_ .f32 0x00000000#32) reducesTo_S64_S_d0 h_S_)
    (constant (F := Ideal) S_ .f32 0x42800000#32)

/-- The vector of the 64 losses. -/
def lossVec (c : Dev nD) : S64.Idx → EReal := shapeCast S64 (lossArr m c) shapeCasts_S64x1x1_S64

/-- What the program's result buffer holds at the end: the tail of the losses and the weights. -/
theorem tail_eq (c : Dev nD) :
    (Pipeline.afterTail₀ cfgs (dats m) 0 (V0 m) [hostOps1] c main_v12 : S_.Idx → EReal) = tail (lossVec m c) (argW m c) := by
  have h5 : Pipeline.withArrays spec0 c (V0 m c) (fun w => (dats m 0 c).arrAt w cfg0.N) (Proc.devRef .tc main_v5) = lossArr m c :=
    (Pipeline.withArrays_arr spec0 launch0.win.arr_inj c _ _ 5).trans (final5 m c)
  have h4 : Pipeline.withArrays spec0 c (V0 m c) (fun w => (dats m 0 c).arrAt w cfg0.N) (Proc.devRef .tc main_arg4) = argW m c :=
    (Pipeline.withArrays_of_ne spec0 c (V0 m c) _ main_arg4 (by exact (by decide : ∀ w, Pipeline.arrRef spec0 w ≠ main_arg4))).trans (V_main_arg4 m c)
  unfold Pipeline.afterTail₀
  show StableHlo.after hostOps1 _ (Proc.devRef .tc main_v12) = _
  after_results
  rw [h5, h4]
  rfl

/-! ## The run -/

/-- Every weakly fair execution of the program terminates with its result at the tail of the losses and the weights, and its five
    arguments unchanged. -/
theorem run : θ_run defs (onTc (τ := τ) (main (F := Ideal))) ⟨m, fun _ => 0, ρ⟩ (fun r => ∀ c : Dev nD,
      r.2.mem ((c.tc : Thread nD τ).loc main_v12) = tail (lossVec m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerRun

end
-- ==== Proof.lean ====
/-
  The edge loss of 64 graphs, computed two ways, is one number.

  Each sample b has a 256 × 256 matrix P_b, and all share a 256 × 256 matrix d. With Q_b = P_b · d, an edge (i, j, w) of sample
  b costs w · c_b(i, j), where c_b(i, j) = Σ_n Q_b[i, n] · P_b[j, n]; the sample's loss is the sum over its 8192 edges, and the
  result is the mean over the samples of loss_b / max(Σ_e w_e, ε).

  The reference gathers the two rows of every edge and sums over the edges. The kernel never gathers: per sample it contracts a
  weighted one-hot matrix of the edges' first indices with a one-hot matrix of their second indices, over the edge axis, into
  A_b[i, j] = Σ_e w_e · [i = i_e] · [j = j_e], and takes Σ_i Σ_j A_b[i, j] · c_b(i, j). The two agree when every index is a row
  number in [0, 256) — outside that range a one-hot column is empty while the gather wraps or fills — and when P, d and w are
  real numbers, because moving c_b(i, j) inside the sum over the edges is distributivity, which the extended reals have only away
  from the infinities. Both facts are what the precondition says (`PreRead.of_pre`). The law itself is `EdgeSum.kerLoss_eq_refLoss`;
  the kernel's stored value is read in `KernelValue`, its result array and the lines after the region in `KernelRun`, the
  reference's per-sample loss in `RefValue`. The lines that turn the 64 losses into the result are the same in both programs
  and are carried as one function, never opened.

  The kernel's narrowing of P, d, Q and w to a 16-bit float format is the identity at the ideal values, so the idealization
  rewrote nothing and `preserves` has nothing to state.
-/
import proofs.«401316_j816043786441_3_alg».proof.Defs
import proofs.«401316_j816043786441_3_alg».proof.Proof.Gen.Kernel
import proofs.«401316_j816043786441_3_alg».proof.Proof.Gen.Kernel.Frame
import proofs.«401316_j816043786441_3_alg».proof.Proof.Gen.KernelIdeal
import proofs.«401316_j816043786441_3_alg».proof.Proof.Gen.KernelIdeal.Frame
import proofs.«401316_j816043786441_3_alg».proof.Proof.Gen.ReferenceIdeal
import proofs.«401316_j816043786441_3_alg».proof.Proof.Gen.Pre_finite_inputs
import proofs.«401316_j816043786441_3_alg».proof.Proof.RefRun
import proofs.«401316_j816043786441_3_alg».proof.Proof.RefRead
import proofs.«401316_j816043786441_3_alg».proof.Proof.EdgeSum
import proofs.«401316_j816043786441_3_alg».proof.Proof.PreRead
import proofs.«401316_j816043786441_3_alg».proof.Proof.RefValue
import proofs.«401316_j816043786441_3_alg».proof.Proof.KernelValue
import proofs.«401316_j816043786441_3_alg».proof.Proof.KernelRun
import Idealize.ShloMosaic.Adequacy
import Idealize.ShloMosaic.Init

noncomputable section

open scoped BigOperators

namespace Cert.Proof

open Idealize.ShloMosaic Idealize.ShloMosaic.TcCoe Idealize.ShloMosaic.ValueIdx Idealize.SL.Sem
open Cert.EdgeSum Cert.KernelIdeal.KerRun

/-! ## The two results are one function of the arguments -/

/-- The vector of the 64 losses read at sample b: the [64, 1, 1] result viewed as 64 numbers. -/
theorem lossVec_apply (m : (ℓ : Loc Cert.KernelIdeal.nD Cert.KernelIdeal.τ Cert.KernelIdeal.sig) → Buf (Elt Ideal) ℓ)
    (c : Dev Cert.KernelIdeal.nD) (b : Fin 64) : lossVec m c (ix1 b) = lossAt m c b := by
  unfold lossVec
  refine (shapeCast_apply (lossArr m c) _ (ix1 b) (ix3 b (0 : Fin 1) (0 : Fin 1)) ?_).trans rfl
  rw [Shape.rowMajor_val_three, Shape.rowMajor_val_one]
  show (b.val * 1 + 0) * 1 + 0 = b.val
  omega

/-- THE BRIDGE: under the precondition, the reference's result term of the kernel program's arguments is the tail of the
    kernel's vector of losses. Sample by sample the reference's edge sum is the kernel's one-hot contraction; the shared
    tail is then the same function applied to equal vectors. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (argP m c) (argD m c) (argI m c) (argJ m c) (argW m c) = fun _ => 1#1) :
    Cert.ReferenceIdeal.ReadP.val_main_v14 (F := Ideal) (argP m c) (argD m c) (argI m c) (argJ m c) (argW m c)
      = tail (lossVec m c) (argW m c) := by
  obtain ⟨hP, hD, hW, hI, hJ⟩ := Cert.PreRead.of_pre _ _ _ _ _ hpre
  have hL : Cert.ReferenceIdeal.ReadP.val_main_v8 (F := Ideal) (argP m c) (argD m c) (argI m c) (argJ m c) (argW m c)
      = lossVec m c := by
    funext i
    obtain ⟨b, rfl⟩ : ∃ b : Fin 64, i = ix1 b := ⟨i 0, eq_ix1 i⟩
    rw [Cert.ReferenceIdeal.RefValue.loss_apply _ _ _ _ _ hI hJ b, lossVec_apply]
    unfold lossAt
    exact (kerLoss_eq_refLoss _ _ _ _ _ (fun i k => hP _) (fun k n => hD _) (fun e => hW _) (fun e => hI _) (fun e => hJ _)).symm
  unfold Cert.ReferenceIdeal.ReadP.val_main_v14 Cert.ReferenceIdeal.ReadP.val_main_v13 Cert.ReferenceIdeal.ReadP.val_main_v12
  rw [hL]
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end at the tail of the same vector of losses. -/
theorem algebraic : Cert.algebraic_KernelIdeal_ReferenceIdeal := by
  intro m ρ m' ρ' hpre hagree
  refine ⟨fun c => tail (lossVec m c) (argW m c), Cert.KernelIdeal.KerRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v14_eq, (hagree c).1, (hagree c).2.1, (hagree c).2.2.1, (hagree c).2.2.2.1, (hagree c).2.2.2.2]
  exact result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
